-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S100000x1 : Shape := ⟨2, ![100000, 1]⟩
abbrev S50000x1 : Shape := ⟨2, ![50000, 1]⟩
abbrev S600000x1 : Shape := ⟨2, ![600000, 1]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S600000x1 : S_.BroadcastsInDim S600000x1 (![] : Fin 0 → Fin S600000x1.rank)
  reducesTo_S600000x1_S_d0_1 : S600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S600000x1 .f32) (main_arg5 : FVec F S600000x1 .f32) (main_arg6 : FVec F S128x128 .f32) (main_arg7 : FVec F S128 .f32) (main_arg8 : FVec F S128x128 .f32) (main_arg9 : FVec F S128 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S600000x1 .f32 := Host.absf main_arg4
  let main_cst_6 : FVec F S_ .f32 := constant S_ .f32 0x7F800000#32
  let main_v20 : FVec F S600000x1 .f32 := broadcastInDim S600000x1 ![] bcast_S_S600000x1 main_cst_6
  let main_v21 : IVec S600000x1 1 := cmpf .olt main_v19 main_v20
  let main_c_7 : IVec S_ 1 := constantI S_ 1 1#1
  let main_v22 : IVec S_ 1 := (fun x v => Host.reduce IntOp.andi x v reducesTo_S600000x1_S_d0_1 h_S_) main_v21 main_c_7
  let main_v23 : IVec S_ 1 := andi main_v18 main_v22
  let main_v24 : FVec F S600000x1 .f32 := Host.absf main_arg5
  let main_cst_8 : FVec F S_ .f32 := constant S_ .f32 0x7F800000#32
  let main_v25 : FVec F S600000x1 .f32 := broadcastInDim S600000x1 ![] bcast_S_S600000x1 main_cst_8
  let main_v26 : IVec S600000x1 1 := cmpf .olt main_v24 main_v25
  let main_c_9 : IVec S_ 1 := constantI S_ 1 1#1
  let main_v27 : IVec S_ 1 := (fun x v => Host.reduce IntOp.andi x v reducesTo_S600000x1_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S100000x1 .f32) (main_arg3 : FVec F S50000x1 .f32) (main_arg4 : FVec F S600000x1 .f32) (main_arg5 : FVec F S600000x1 .f32) (main_arg6 : FVec F S128x128 .f32) (main_arg7 : FVec F S128 .f32) (main_arg8 : FVec F S128x128 .f32) (main_arg9 : FVec F S128 .f32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S100000x1 : Shape := ⟨2, ![100000, 1]⟩
abbrev S50000x1 : Shape := ⟨2, ![50000, 1]⟩
abbrev S600000x1 : Shape := ⟨2, ![600000, 1]⟩
abbrev S128x128 : Shape := ⟨2, ![128, 128]⟩
abbrev S128 : Shape := ⟨1, ![128]⟩
abbrev S600000 : Shape := ⟨1, ![600000]⟩
abbrev S_ : Shape := ⟨0, ![]⟩
abbrev S600000x128 : Shape := ⟨2, ![600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 79
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S100000x1, .f32⟩
  | .hbm, ⟨3, _⟩ => ⟨S50000x1, .f32⟩
  | .hbm, ⟨4, _⟩ => ⟨S600000x1, .f32⟩
  | .hbm, ⟨5, _⟩ => ⟨S600000x1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S100000x128, .f32⟩
  | .hbm, ⟨13, _⟩ => ⟨S100000x128, .f32⟩
  | .hbm, ⟨14, _⟩ => ⟨S50000x128, .f32⟩
  | .hbm, ⟨15, _⟩ => ⟨S50000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S_, .f32⟩
  | .hbm, ⟨66, _⟩ => ⟨S100000x128, .f32⟩
  | .hbm, ⟨67, _⟩ => ⟨S600000x1, .i32⟩
  | .hbm, ⟨68, _⟩ => ⟨S100000x128, .f32⟩
  | .hbm, ⟨69, _⟩ => ⟨S_, .f32⟩
  | .hbm, ⟨70, _⟩ => ⟨S50000x128, .f32⟩
  | .hbm, ⟨71, _⟩ => ⟨S600000x1, .i32⟩
  | .hbm, ⟨72, _⟩ => ⟨S50000x128, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S1x128, .f32⟩
  | .hbm, ⟨77, _⟩ => ⟨S100000x128, .f32⟩
  | .hbm, ⟨78, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S100000x1_S100000x128_0_1 : S100000x1.BroadcastsInDim S100000x128 (![0, 1] : Fin 2 → Fin S100000x128.rank)
  bcast_S50000x1_S50000x128_0_1 : S50000x1.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S600000x1_S600000x128_1_0_n_n_0_1_1128_wf : GatherDims.WF S100000x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v53) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S100000x1 : Shape := ⟨2, ![100000, 1]⟩
abbrev S50000x1 : Shape := ⟨2, ![50000, 1]⟩
abbrev S600000x1 : Shape := ⟨2, ![600000, 1]⟩
abbrev S128x128 : Shape := ⟨2, ![128, 128]⟩
abbrev S128 : Shape := ⟨1, ![128]⟩
abbrev S600000 : Shape := ⟨1, ![600000]⟩
abbrev S_ : Shape := ⟨0, ![]⟩
abbrev S600000x128 : Shape := ⟨2, ![600000, 128]⟩
abbrev S1x128 : Shape := ⟨2, ![1, 128]⟩
abbrev S100000 : Shape := ⟨1, ![100000]⟩
abbrev S50000 : Shape := ⟨1, ![50000]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S50000x128, .f32⟩
  | 2 => ⟨S100000x1, .f32⟩
  | 3 => ⟨S50000x1, .f32⟩
  | 4 => ⟨S600000x1, .f32⟩
  | 5 => ⟨S600000x1, .f32⟩
  | 6 => ⟨S128x128, .f32⟩
  | 7 => ⟨S128, .f32⟩
  | 8 => ⟨S128x128, .f32⟩
  | 9 => ⟨S128, .f32⟩
  | 10 => ⟨S600000, .i32⟩
  | 11 => ⟨S600000, .i32⟩
  | 12 => ⟨S100000x128, .f32⟩
  | 13 => ⟨S100000x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S50000x128, .f32⟩
  | 24 => ⟨S50000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S600000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x128, .f32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S_, .f32⟩
  | 66 => ⟨S100000x128, .f32⟩
  | 67 => ⟨S600000x1, .i32⟩
  | 68 => ⟨S100000x128, .f32⟩
  | 69 => ⟨S_, .f32⟩
  | 70 => ⟨S50000x128, .f32⟩
  | 71 => ⟨S600000x1, .i32⟩
  | 72 => ⟨S50000x128, .f32⟩
  | 73 => ⟨S100000x128, .f32⟩
  | 74 => ⟨S128x128, .f32⟩
  | 75 => ⟨S100000x128, .f32⟩
  | 76 => ⟨S1x128, .f32⟩
  | 77 => ⟨S100000x128, .f32⟩
  | 78 => ⟨S100000x128, .f32⟩
  | 79 => ⟨S128x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S50000x128, .f32⟩
  | 86 => ⟨S128x128, .f32⟩
  | 87 => ⟨S50000x128, .f32⟩
  | 88 => ⟨S1x128, .f32⟩
  | 89 => ⟨S50000x128, .f32⟩
  | 90 => ⟨S50000x128, .f32⟩
  | 91 => ⟨S128x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S100000x128, .f32⟩
  | 99 => ⟨S100000x128, .i1⟩
  | 100 => ⟨S_, .f32⟩
  | 101 => ⟨S100000x128, .f32⟩
  | 102 => ⟨S100000x128, .f32⟩
  | 103 => ⟨S100000x128, .f32⟩
  | 104 => ⟨S100000x128, .f32⟩
  | 105 => ⟨S_, .f32⟩
  | 106 => ⟨S100000, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S_, .f32⟩
  | 115 => ⟨S50000x128, .f32⟩
  | 116 => ⟨S50000x128, .i1⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S50000x1, .f32⟩
  | 126 => ⟨S_, .f32⟩
  | 127 => ⟨S50000x1, .f32⟩
  | _ => ⟨S100000x128, .f32⟩

abbrev hbmTy0_1 (i : Nat) : BufTy := match i % 128 with
  | 0 => ⟨S50000x1, .f32⟩
  | 1 => ⟨S50000x128, .f32⟩
  | 2 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_14 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S50000x1_S50000x128_0_1 : S50000x1.BroadcastsInDim S50000x128 (![0, 1] : Fin 2 → Fin S50000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  gather_S100000x128_S600000x1_S600000x128_1_0_n_n_0_1_1128_wf : GatherDims.WF S100000x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S50000x128_S600000x1_S600000x128_1_0_0_1_wf : ScatterDims.WF S50000x128 S600000x1 S600000x128 [1] [0] [0] 1
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One row of the fused layer, as a function on extended reals.

  A row of the result depends on the same row of three inputs (the node's own features, the aggregated
  neighbour features, the aggregated edge messages), on two 128 × 128 weight matrices (given here already
  transposed: entry (k, j) multiplies input feature k into output feature j) and on two bias rows:

    pre j  = ((Σₖ (x k + a k) · w₁ᵀ k j) + b₁ j + Σₖ g k · w₂ᵀ k j) + b₂ j
    act h  = h if h > 0, else 0.2 · h          (the two literals kept as their binary words)
    out j  = act (pre j) / max (√ Σₖ (act (pre k))²) ε

  Both programs compute exactly this at every row; only the way the rows are cut into blocks differs.
-/
import Idealize.ShloMosaic.PureOps.Ideal
import Idealize.ShloMosaic.Lib.ValueIdx

noncomputable section

namespace Cert.Layer

open Idealize.ShloMosaic

/-- The affine part: two matrix products (into transposed weights) and two biases, added in the order
    the programs add them. -/
def pre (x a g : Fin 128 → EReal) (w1t w2t : Fin 128 → Fin 128 → EReal) (b1 b2 : Fin 128 → EReal) (j : Fin 128) : EReal :=
  ((∑ k : Fin 128, (x k + a k) * w1t k j) + b1 j + ∑ k : Fin 128, g k * w2t k j) + b2 j

/-- The leaky rectifier: the entry itself where it is positive, a fifth of it (the f32 word of 0.2) elsewhere. -/
def act (h : EReal) : EReal :=
  Scalar.select (Ideal.cmp .ogt h (Ideal.ofBits .f32 0x00000000#32)) h (Ideal.ofBits .f32 0x3E4CCCCD#32 * h)

/-- The row divided by its Euclidean norm, the norm kept away from zero by the f32 word of 1e-12. -/
def out (h : Fin 128 → EReal) (j : Fin 128) : EReal :=
  Ideal.div (act (h j)) (max (Ideal.sqrt (∑ k : Fin 128, act (h k) * act (h k))) (Ideal.ofBits .f32 0x2B8CBCCC#32))

end Cert.Layer

end
-- ==== Proof.Body.lean ====
/-
  The kernel body's stored value, read at an index.

  The body works on a block of 5000 rows. Its stored value at row p, column q of the block is the fused
  layer's `out` of that row: the two matrix products are sums over the 128 input features, the biases are
  the single row of a 1 × 128 block, the norm is the lane sum over the row's 128 entries.
-/
import proofs.«131043_j52561809769220_1_alg».proof.Proof.Gen.KernelIdeal.Skeleton
import proofs.«131043_j52561809769220_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The affine part of the body on a block: both products into zero accumulators, the bias rows spread over the rows. -/
def hvec (x0 x1 x2 : FVec Ideal S5000x128 .f32) (x3 x5 : FVec Ideal S128x128 .f32) (x4 x6 : FVec Ideal S1x128 .f32) : FVec Ideal S5000x128 .f32 :=
  addf (addf (addf (matmul dot_S5000x128_S128x128_S5000x128_1_0_0_1_n_n none (addf x0 (shapeCast S5000x128 x1 shapeCasts_S5000x128_S5000x128)) (shapeCast S128x128 x3 shapeCasts_S128x128_S128x128) (constant S5000x128 .f32 0x00000000#32))
      (broadcastTo S5000x128 (shapeCast S1x128 x4 shapeCasts_S1x128_S1x128) broadcasts_S1x128_S5000x128))
    (matmul dot_S5000x128_S128x128_S5000x128_1_0_0_1_n_n none (shapeCast S5000x128 x2 shapeCasts_S5000x128_S5000x128) (shapeCast S128x128 x5 shapeCasts_S128x128_S128x128) (constant S5000x128 .f32 0x00000000#32)))
    (broadcastTo S5000x128 (shapeCast S1x128 x6 shapeCasts_S1x128_S1x128) broadcasts_S1x128_S5000x128)

/-- The rectifier on a block. -/
def avec (h : FVec Ideal S5000x128 .f32) : FVec Ideal S5000x128 .f32 :=
  select (cmpf .ogt h (broadcast S5000x128 (Scalar.ofBits .f32 0x00000000#32))) h (mulf (broadcast S5000x128 (Scalar.ofBits .f32 0x3E4CCCCD#32)) h)

/-- The normalisation on a block. -/
def nvec (a : FVec Ideal S5000x128 .f32) : FVec Ideal S5000x128 .f32 :=
  divf a (broadcastTo S5000x128 (maximumf (sqrt (shapeCast S5000x1 (multiReduction .add [1] S5000 (mulf a a) 0x00000000#32 reduces_S5000x128_S5000 (.inl rfl) rfl) shapeCasts_S5000_S5000x1)) (broadcast S5000x1 (Scalar.ofBits .f32 0x2B8CBCCC#32))) broadcasts_S5000x1_S5000x128)

theorem pay0_eq (x0 x1 x2 : FVec Ideal S5000x128 .f32) (x3 x5 : FVec Ideal S128x128 .f32) (x4 x6 : FVec Ideal S1x128 .f32) :
    k0_pay1 (F := Ideal) x0 x1 x3 x4 x2 x5 x6 = nvec (avec (hvec x0 x1 x2 x3 x5 x4 x6)) := rfl

theorem pay1_eq (x0 x1 x2 : FVec Ideal S5000x128 .f32) (x3 x5 : FVec Ideal S128x128 .f32) (x4 x6 : FVec Ideal S1x128 .f32) :
    k1_pay1 (F := Ideal) x0 x1 x3 x4 x2 x5 x6 = nvec (avec (hvec x0 x1 x2 x3 x5 x4 x6)) := rfl

/-! ## The products, read at an index -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000 × 128 block with a 128 × 128 matrix into a zero accumulator: entry (p, j) is the sum over the
    128 shared coordinates. -/
theorem mm_apply (l : FVec Ideal S5000x128 .f32) (r : FVec Ideal S128x128 .f32) (p : Fin 5000) (j : Fin 128) :
    matmul dot_S5000x128_S128x128_S5000x128_1_0_0_1_n_n none l r (constant S5000x128 .f32 0x00000000#32) (ix2 p j)
      = ∑ k : Fin 128, l (ix2 p k) * r (ix2 k j) := by
  show FloatOps.matmul dot_S5000x128_S128x128_S5000x128_1_0_0_1_n_n none l r (constant S5000x128 .f32 0x00000000#32) (ix2 p j) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- The affine part at row p, column j of a block is the layer's `pre` of that row. -/
theorem hvec_apply (x0 x1 x2 : FVec Ideal S5000x128 .f32) (x3 x5 : FVec Ideal S128x128 .f32) (x4 x6 : FVec Ideal S1x128 .f32) (p : Fin 5000) (j : Fin 128) :
    hvec x0 x1 x2 x3 x5 x4 x6 (ix2 p j)
      = Layer.pre (fun k => x0 (ix2 p k)) (fun k => x1 (ix2 p k)) (fun k => x2 (ix2 p k)) (fun k j => x3 (ix2 k j)) (fun k j => x5 (ix2 k j))
          (fun j => x4 (ix2 (0 : Fin 1) j)) (fun j => x6 (ix2 (0 : Fin 1) j)) j := by
  unfold hvec Layer.pre
  simp only [shapeCast_self]
  show ((matmul _ none _ _ _ (ix2 p j) + broadcastTo S5000x128 x4 _ (ix2 p j)) + matmul _ none _ _ _ (ix2 p j)) + broadcastTo S5000x128 x6 _ (ix2 p j) = _
  rw [mm_apply, mm_apply, broadcastTo_1b_ab_apply, broadcastTo_1b_ab_apply]
  rfl

/-! ## The rectifier and the normalisation, read at an index -/

theorem avec_apply (h : FVec Ideal S5000x128 .f32) (i : S5000x128.Idx) : avec h i = Layer.act (h i) := rfl

/-- The normalised block at row p, column q: the entry over the larger of the row's Euclidean norm and ε; the lane sum
    over the row's 128 entries starts from the neutral accumulator, so it is the plain sum. -/
theorem nvec_apply (a : FVec Ideal S5000x128 .f32) (p : Fin 5000) (q : Fin 128) :
    nvec a (ix2 p q)
      = Ideal.div (a (ix2 p q)) (max (Ideal.sqrt (∑ k : Fin 128, a (ix2 p k) * a (ix2 p k))) (Ideal.ofBits .f32 0x2B8CBCCC#32)) := by
  unfold nvec
  show Ideal.div (a (ix2 p q)) (broadcastTo S5000x128 _ broadcasts_S5000x1_S5000x128 (ix2 p q)) = _
  rw [broadcastTo_apply _ broadcasts_S5000x1_S5000x128 (ix2 p q) (ix2 p (0 : Fin 1)) (fun ax => by
    match ax with
    | ⟨0, _⟩ => show p.val = if (5000 : Nat) = 1 then 0 else p.val; rw [if_neg (by decide)]
    | ⟨1, _⟩ => show (0 : Nat) = if (1 : Nat) = 1 then 0 else q.val; rw [if_pos rfl])]
  show Ideal.div _ (max (Ideal.sqrt (shapeCast S5000x1 _ shapeCasts_S5000_S5000x1 (ix2 p (0 : Fin 1)))) _) = _
  rw [shapeCast_apply _ shapeCasts_S5000_S5000x1 (ix2 p (0 : Fin 1)) (ix1 p) (by
    rw [Shape.rowMajor_val_one, Shape.rowMajor_val_two]; show p.val = p.val * 1 + 0; omega)]
  refine congrArg (fun s => Ideal.div (a (ix2 p q)) (max (Ideal.sqrt s) (Ideal.ofBits .f32 0x2B8CBCCC#32))) ?_
  refine (Ideal.multiReduction_add_single (mulf a a) _ reduces_S5000x128_S5000 _ _ (ix1 p)).trans ?_
  refine Finset.sum_congr rfl fun k _ => ?_
  have e : reduces_S5000x128_S5000.lift (ix1 p) k = ix2 p k := funext fun d => Fin.ext (by match d with | ⟨0, _⟩ => rfl | ⟨1, _⟩ => rfl)
  rw [e]
  rfl

/-- THE BODY'S STORED VALUE at row p, column q of a block: the layer's `out` of the block's row p, over the weight and
    bias blocks as they are. -/
theorem body_apply (x0 x1 x2 : FVec Ideal S5000x128 .f32) (x3 x5 : FVec Ideal S128x128 .f32) (x4 x6 : FVec Ideal S1x128 .f32) (p : Fin 5000) (q : Fin 128) :
    nvec (avec (hvec x0 x1 x2 x3 x5 x4 x6)) (ix2 p q)
      = Layer.out (Layer.pre (fun k => x0 (ix2 p k)) (fun k => x1 (ix2 p k)) (fun k => x2 (ix2 p k)) (fun k j => x3 (ix2 k j)) (fun k j => x5 (ix2 k j))
          (fun j => x4 (ix2 (0 : Fin 1) j)) (fun j => x6 (ix2 (0 : Fin 1) j))) q := by
  rw [nvec_apply]
  simp only [avec_apply, hvec_apply]
  rfl

end Cert.KernelIdeal.Body

end
-- ==== Proof.BlocksUser.lean ====
/-
  The user table's result array, from its blocks.

  The first call walks 20 points; point t stages rows 5000 t … 5000 t + 4999 of the three row-indexed inputs
  (the user features and the two aggregated arrays) and the whole of the two weight matrices and the two bias rows,
  and writes the same 5000 rows of the result back. The body's stored value at a row is the fused layer's `out` of that
  row, so point t writes back block t of ONE function of the whole arrays; the 20 blocks tile the 100000 rows, so the
  result array ends holding that function.
-/
import proofs.«131043_j52561809769220_1_alg».proof.Proof.Gen.KernelIdeal.Frame
import proofs.«131043_j52561809769220_1_alg».proof.Proof.Body
import Idealize.ShloMosaic.Lib.Pipeline.Value

set_option maxRecDepth 16384

noncomputable section

namespace Cert.KernelIdeal.BlocksU

open Cert.KernelIdeal Cert.KernelIdeal.Gen Idealize.ShloMosaic Idealize.ShloMosaic.TcCoe Idealize.SL.Sem Idealize.ShloMosaic.ValueIdx
open Idealize.ShloMosaic.Pipeline (Dat)

-- The contents of the TensorCore's buffers when the call is entered: a parameter here, named by the run later.
variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: a row-indexed window is at block row t, column block 0; the weights and
    the biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The row and the column of an entry of the table. -/
abbrev rowU (i : S100000x128.Idx) : Fin 100000 := ⟨(i 0).val, (i 0).isLt⟩
abbrev colU (i : S100000x128.Idx) : Fin 128 := ⟨(i 1).val, (i 1).isLt⟩

/-- The result as ONE function of the whole arrays: entry (r, j) is the layer's `out` of row r. -/
def GU (feat agg msg : FVec Ideal S100000x128 .f32) (w1t w2t : FVec Ideal S128x128 .f32) (b1 b2 : FVec Ideal S1x128 .f32) : FVec Ideal S100000x128 .f32 :=
  fun i => Layer.out (Layer.pre (fun k => feat (ix2 (rowU i) k)) (fun k => agg (ix2 (rowU i) k)) (fun k => msg (ix2 (rowU i) k))
    (fun k j => w1t (ix2 k j)) (fun k j => w2t (ix2 k j)) (fun j => b1 (ix2 (0 : Fin 1) j)) (fun j => b2 (ix2 (0 : Fin 1) j))) (colU i)

theorem GU_at (feat agg msg : FVec Ideal S100000x128 .f32) (w1t w2t : FVec Ideal S128x128 .f32) (b1 b2 : FVec Ideal S1x128 .f32)
    (i : S100000x128.Idx) (r : Fin 100000) (q : Fin 128) (h0 : (i 0).val = r.val) (h1 : (i 1).val = q.val) :
    GU feat agg msg w1t w2t b1 b2 i
      = Layer.out (Layer.pre (fun k => feat (ix2 r k)) (fun k => agg (ix2 r k)) (fun k => msg (ix2 r k))
          (fun k j => w1t (ix2 k j)) (fun k j => w2t (ix2 k j)) (fun j => b1 (ix2 (0 : Fin 1) j)) (fun j => b2 (ix2 (0 : Fin 1) j))) q := by
  have er : rowU i = r := Fin.ext h0
  have ec : colU i = q := Fin.ext h1
  unfold GU
  rw [er, ec]

/-! ## Each window's block, read off its array -/

/-- Window 0's block at point t is rows 5000 t … of the user features. -/
theorem blk0_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → Elt Ideal .f32) k := by
  obtain ⟨h0, h1, -⟩ := idx_facts t
  unfold iblk0
  rw [View.read_apply]
  show V c main_arg0 _ = V c main_arg0 _
  refine congrArg (V c main_arg0) (funext fun a => Fin.ext ?_)
  match a with
  | ⟨0, _⟩ => show win0_0.index t 0 * 5000 + 1 * (y 0).val = (k 0).val; rw [h0, hk0]; omega
  | ⟨1, _⟩ => show win0_0.index t 1 * 128 + 1 * (y 1).val = (k 1).val; rw [h1, hk1]; omega

/-- Window 1's block at point t is rows 5000 t … of the aggregated neighbour features. -/
theorem blk1_apply (c : Dev nD) (t : Fin cfg0.N) (y : S5000x128.Idx) (k : S100000x128.Idx)
    (hk0 : (k 0).val = 5000 * t.val + (y 0).val) (hk1 : (k 1).val = (y 1).val) :
    (iblk0 V c 1 t : Vec Ideal S5000x128 .f32) y = (V c main_v30 : S100000x128.Idx → Elt Ideal .f32) k := by
  obtain ⟨-, -, h0, h1, -⟩ := idx_facts t
  unfold iblk0
  rw [View.read_apply]
  show V c main_v30 _ = V c main_v30 _
  refine congrArg (V c main_v30) (funext fun a => Fin.ext ?_)
  match a with
  | ⟨0, _⟩ => show win0_1.index t 0 * 5000 + 1 * (y 0).val = (k 0).val; rw [h0, hk0]; omega
  | ⟨1, _⟩ => show win0_1.index t 1 * 128 + 1 * (y 1).val = (k 1).val; rw [h1, hk1]; omega

/-- Window 2's block at point t is rows 5000 t … of the aggregated edge messages. -/
theorem blk2_apply (c : Dev nD) (t : Fin cfg0.N) (y : S5000x128.Idx) (k : S100000x128.Idx)
    (hk0 : (k 0).val = 5000 * t.val + (y 0).val) (hk1 : (k 1).val = (y 1).val) :
    (iblk0 V c 2 t : Vec Ideal S5000x128 .f32) y = (V c main_v45 : S100000x128.Idx → Elt Ideal .f32) k := by
  obtain ⟨-, -, -, -, h0, h1, -⟩ := idx_facts t
  unfold iblk0
  rw [View.read_apply]
  show V c main_v45 _ = V c main_v45 _
  refine congrArg (V c main_v45) (funext fun a => Fin.ext ?_)
  match a with
  | ⟨0, _⟩ => show win0_2.index t 0 * 5000 + 1 * (y 0).val = (k 0).val; rw [h0, hk0]; omega
  | ⟨1, _⟩ => show win0_2.index t 1 * 128 + 1 * (y 1).val = (k 1).val; rw [h1, hk1]; omega

/-- Window 3's block is the whole first weight matrix (transposed on the host), at every point. -/
theorem blk3_apply (c : Dev nD) (t : Fin cfg0.N) (y : S128x128.Idx) :
    (iblk0 V c 3 t : Vec Ideal S128x128 .f32) y = (V c main_v49 : S128x128.Idx → Elt Ideal .f32) y := by
  obtain ⟨-, -, -, -, -, -, h0, h1, -⟩ := idx_facts t
  unfold iblk0
  rw [View.read_apply]
  show V c main_v49 _ = V c main_v49 _
  refine congrArg (V c main_v49) (funext fun a => Fin.ext ?_)
  match a with
  | ⟨0, _⟩ => show win0_3.index t 0 * 128 + 1 * (y 0).val = (y 0).val; rw [h0]; omega
  | ⟨1, _⟩ => show win0_3.index t 1 * 128 + 1 * (y 1).val = (y 1).val; rw [h1]; omega

/-- Window 4's block is the whole first bias row, at every point. -/
theorem blk4_apply (c : Dev nD) (t : Fin cfg0.N) (y : S1x128.Idx) :
    (iblk0 V c 4 t : Vec Ideal S1x128 .f32) y = (V c main_v51 : S1x128.Idx → Elt Ideal .f32) y := by
  obtain ⟨-, -, -, -, -, -, -, -, h0, h1, -⟩ := idx_facts t
  unfold iblk0
  rw [View.read_apply]
  show V c main_v51 _ = V c main_v51 _
  refine congrArg (V c main_v51) (funext fun a => Fin.ext ?_)
  match a with
  | ⟨0, _⟩ => show win0_4.index t 0 * 1 + 1 * (y 0).val = (y 0).val; rw [h0]; omega
  | ⟨1, _⟩ => show win0_4.index t 1 * 128 + 1 * (y 1).val = (y 1).val; rw [h1]; omega

/-- Window 5's block is the whole second weight matrix (transposed on the host), at every point. -/
theorem blk5_apply (c : Dev nD) (t : Fin cfg0.N) (y : S128x128.Idx) :
    (iblk0 V c 5 t : Vec Ideal S128x128 .f32) y = (V c main_v50 : S128x128.Idx → Elt Ideal .f32) y := by
  obtain ⟨-, -, -, -, -, -, -, -, -, -, h0, h1, -⟩ := idx_facts t
  unfold iblk0
  rw [View.read_apply]
  show V c main_v50 _ = V c main_v50 _
  refine congrArg (V c main_v50) (funext fun a => Fin.ext ?_)
  match a with
  | ⟨0, _⟩ => show win0_5.index t 0 * 128 + 1 * (y 0).val = (y 0).val; rw [h0]; omega
  | ⟨1, _⟩ => show win0_5.index t 1 * 128 + 1 * (y 1).val = (y 1).val; rw [h1]; omega

/-- Window 6's block is the whole second bias row, at every point. -/
theorem blk6_apply (c : Dev nD) (t : Fin cfg0.N) (y : S1x128.Idx) :
    (iblk0 V c 6 t : Vec Ideal S1x128 .f32) y = (V c main_v52 : S1x128.Idx → Elt Ideal .f32) y := by
  obtain ⟨-, -, -, -, -, -, -, -, -, -, -, -, h0, h1, -⟩ := idx_facts t
  unfold iblk0
  rw [View.read_apply]
  show V c main_v52 _ = V c main_v52 _
  refine congrArg (V c main_v52) (funext fun a => Fin.ext ?_)
  match a with
  | ⟨0, _⟩ => show win0_6.index t 0 * 1 + 1 * (y 0).val = (y 0).val; rw [h0]; omega
  | ⟨1, _⟩ => show win0_6.index t 1 * 128 + 1 * (y 1).val = (y 1).val; rw [h1]; omega

/-! ## What a point writes back, and the cover -/

/-- WHAT POINT t WRITES BACK is block t of `GU` of the arrays as the call finds them. -/
theorem flushed_eq (c : Dev nD) (t : Fin cfg0.N) :
    (dat0 V c).flushed 7 t = ((cfg0.win 7).blk t).view.read (Elt Ideal)
      (GU (V c main_arg0) (V c main_v30) (V c main_v45) (V c main_v49) (V c main_v50) (V c main_v51) (V c main_v52)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  rw [Body.pay0_eq]
  funext j
  obtain ⟨p, q, rfl⟩ : ∃ (p : Fin 5000) (q : Fin 128), j = ix2 p q := ⟨j 0, j 1, eq_ix2 j⟩
  have ht : t.val < 20 := lt_of_lt_of_eq t.isLt N_0
  obtain ⟨-, -, -, -, -, -, -, -, -, -, -, -, -, -, h70, h71⟩ := idx_facts t
  have hE0 : ((((cfg0.win 7).blk t).view.emb (ix2 p q)) 0).val = (⟨5000 * t.val + p.val, by omega⟩ : Fin 100000).val := by
    show win0_7.index t 0 * 5000 + 1 * p.val = 5000 * t.val + p.val; rw [h70]; omega
  have hE1 : ((((cfg0.win 7).blk t).view.emb (ix2 p q)) 1).val = q.val := by
    show win0_7.index t 1 * 128 + 1 * q.val = q.val; rw [h71]; omega
  show Body.nvec (Body.avec (Body.hvec _ _ _ _ _ _ _)) (ix2 p q) = GU _ _ _ _ _ _ _ (((cfg0.win 7).blk t).view.emb (ix2 p q))
  rw [Body.body_apply, GU_at _ _ _ _ _ _ _ _ ⟨5000 * t.val + p.val, by omega⟩ q hE0 hE1]
  have e0 : (fun k : Fin 128 => (iblk0 V c 0 t : Vec Ideal S5000x128 .f32) (ix2 p k)) = fun k => (V c main_arg0 : S100000x128.Idx → Elt Ideal .f32) (ix2 (⟨5000 * t.val + p.val, by omega⟩ : Fin 100000) k) :=
    funext fun k => blk0_apply V c t _ _ rfl rfl
  have e1 : (fun k : Fin 128 => (iblk0 V c 1 t : Vec Ideal S5000x128 .f32) (ix2 p k)) = fun k => (V c main_v30 : S100000x128.Idx → Elt Ideal .f32) (ix2 (⟨5000 * t.val + p.val, by omega⟩ : Fin 100000) k) :=
    funext fun k => blk1_apply V c t _ _ rfl rfl
  have e2 : (fun k : Fin 128 => (iblk0 V c 2 t : Vec Ideal S5000x128 .f32) (ix2 p k)) = fun k => (V c main_v45 : S100000x128.Idx → Elt Ideal .f32) (ix2 (⟨5000 * t.val + p.val, by omega⟩ : Fin 100000) k) :=
    funext fun k => blk2_apply V c t _ _ rfl rfl
  have e3 : (fun k j : Fin 128 => (iblk0 V c 3 t : Vec Ideal S128x128 .f32) (ix2 k j)) = fun k j => (V c main_v49 : S128x128.Idx → Elt Ideal .f32) (ix2 k j) :=
    funext fun k => funext fun j => blk3_apply V c t _
  have e5 : (fun k j : Fin 128 => (iblk0 V c 5 t : Vec Ideal S128x128 .f32) (ix2 k j)) = fun k j => (V c main_v50 : S128x128.Idx → Elt Ideal .f32) (ix2 k j) :=
    funext fun k => funext fun j => blk5_apply V c t _
  have e4 : (fun j : Fin 128 => (iblk0 V c 4 t : Vec Ideal S1x128 .f32) (ix2 (0 : Fin 1) j)) = fun j => (V c main_v51 : S1x128.Idx → Elt Ideal .f32) (ix2 (0 : Fin 1) j) :=
    funext fun j => blk4_apply V c t _
  have e6 : (fun j : Fin 128 => (iblk0 V c 6 t : Vec Ideal S1x128 .f32) (ix2 (0 : Fin 1) j)) = fun j => (V c main_v52 : S1x128.Idx → Elt Ideal .f32) (ix2 (0 : Fin 1) j) :=
    funext fun j => blk6_apply V c t _
  exact congrArg (fun f => Layer.out f q) (by rw [e0, e1, e2, e3, e5, e4, e6])

/-- An index of the result array is in point t's block iff each coordinate is in the block's range on its axis. -/
theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v53).slice (win0_7.rect t)).set ↔ _
  rw [View.set_slice_whole, Rect.mem_set_unit]
  exact Iff.rfl

/-- Every entry of the result array is in the block of the point its row falls in: point ⌊r / 5000⌋. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_7 _, ?_⟩
  rw [mem_blk]
  obtain ⟨-, -, -, -, -, -, -, -, -, -, -, -, -, -, h70, h71⟩ := idx_facts ⟨(i 0).val / 5000, by rw [hN]; omega⟩
  intro a
  match a with
  | ⟨0, _⟩ =>
    show win0_7.index _ 0 * 5000 ≤ (i 0).val ∧ (i 0).val < win0_7.index _ 0 * 5000 + 5000
    rw [h70]; show (i 0).val / 5000 * 5000 ≤ (i 0).val ∧ (i 0).val < (i 0).val / 5000 * 5000 + 5000; omega
  | ⟨1, _⟩ =>
    show win0_7.index _ 1 * 128 ≤ (i 1).val ∧ (i 1).val < win0_7.index _ 1 * 128 + 128
    rw [h71]; omega

/-- THE RESULT ARRAY after the call: `GU` of the arrays as the call finds them. -/
theorem final (c : Dev nD) :
    (dat0 V c).arrAt 7 cfg0.N = GU (V c main_arg0) (V c main_v30) (V c main_v45) (V c main_v49) (V c main_v50) (V c main_v51) (V c main_v52) :=
  (dat0 V c).arrAt_eq_of_cover 7 _ (fun t _ => flushed_eq V c t) cover

end Cert.KernelIdeal.BlocksU

end
-- ==== Proof.BlocksItem.lean ====
/-
  The item table's result array, from its blocks.

  The second call walks 10 points; point t stages rows 5000 t … 5000 t + 4999 of the three row-indexed inputs
  (the item features and the two aggregated arrays) and the whole of the two weight matrices and the two bias rows,
  and writes the same 5000 rows of the result back. The body's stored value at a row is the fused layer's `out` of that
  row, so point t writes back block t of ONE function of the whole arrays; the 10 blocks tile the 50000 rows, so the
  result array ends holding that function.
-/
import proofs.«131043_j52561809769220_1_alg».proof.Proof.Gen.KernelIdeal.Frame
import proofs.«131043_j52561809769220_1_alg».proof.Proof.Body
import Idealize.ShloMosaic.Lib.Pipeline.Value

set_option maxRecDepth 16384

noncomputable section

namespace Cert.KernelIdeal.BlocksI

open Cert.KernelIdeal Cert.KernelIdeal.Gen Idealize.ShloMosaic Idealize.ShloMosaic.TcCoe Idealize.SL.Sem Idealize.ShloMosaic.ValueIdx
open Idealize.ShloMosaic.Pipeline (Dat)

-- The contents of the TensorCore's buffers when the call is entered: a parameter here, named by the run later.
variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 points: a row-indexed window is at block row t, column block 0; the weights and
    the biases stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The row and the column of an entry of the table. -/
abbrev rowI (i : S50000x128.Idx) : Fin 50000 := ⟨(i 0).val, (i 0).isLt⟩
abbrev colI (i : S50000x128.Idx) : Fin 128 := ⟨(i 1).val, (i 1).isLt⟩

/-- The result as ONE function of the whole arrays: entry (r, j) is the layer's `out` of row r. -/
def GI (feat agg msg : FVec Ideal S50000x128 .f32) (w1t w2t : FVec Ideal S128x128 .f32) (b1 b2 : FVec Ideal S1x128 .f32) : FVec Ideal S50000x128 .f32 :=
  fun i => Layer.out (Layer.pre (fun k => feat (ix2 (rowI i) k)) (fun k => agg (ix2 (rowI i) k)) (fun k => msg (ix2 (rowI i) k))
    (fun k j => w1t (ix2 k j)) (fun k j => w2t (ix2 k j)) (fun j => b1 (ix2 (0 : Fin 1) j)) (fun j => b2 (ix2 (0 : Fin 1) j))) (colI i)

theorem GI_at (feat agg msg : FVec Ideal S50000x128 .f32) (w1t w2t : FVec Ideal S128x128 .f32) (b1 b2 : FVec Ideal S1x128 .f32)
    (i : S50000x128.Idx) (r : Fin 50000) (q : Fin 128) (h0 : (i 0).val = r.val) (h1 : (i 1).val = q.val) :
    GI feat agg msg w1t w2t b1 b2 i
      = Layer.out (Layer.pre (fun k => feat (ix2 r k)) (fun k => agg (ix2 r k)) (fun k => msg (ix2 r k))
          (fun k j => w1t (ix2 k j)) (fun k j => w2t (ix2 k j)) (fun j => b1 (ix2 (0 : Fin 1) j)) (fun j => b2 (ix2 (0 : Fin 1) j))) q := by
  have er : rowI i = r := Fin.ext h0
  have ec : colI i = q := Fin.ext h1
  unfold GI
  rw [er, ec]

/-! ## Each window's block, read off its array -/

/-- Window 0's block at point t is rows 5000 t … of the item features. -/
theorem blk0_apply (c : Dev nD) (t : Fin cfg1.N) (y : S5000x128.Idx) (k : S50000x128.Idx)
    (hk0 : (k 0).val = 5000 * t.val + (y 0).val) (hk1 : (k 1).val = (y 1).val) :
    (iblk1 V c 0 t : Vec Ideal S5000x128 .f32) y = (V c main_arg1 : S50000x128.Idx → Elt Ideal .f32) k := by
  obtain ⟨h0, h1, -⟩ := idx_facts t
  unfold iblk1
  rw [View.read_apply]
  show V c main_arg1 _ = V c main_arg1 _
  refine congrArg (V c main_arg1) (funext fun a => Fin.ext ?_)
  match a with
  | ⟨0, _⟩ => show win1_0.index t 0 * 5000 + 1 * (y 0).val = (k 0).val; rw [h0, hk0]; omega
  | ⟨1, _⟩ => show win1_0.index t 1 * 128 + 1 * (y 1).val = (k 1).val; rw [h1, hk1]; omega

/-- Window 1's block at point t is rows 5000 t … of the aggregated neighbour features. -/
theorem blk1_apply (c : Dev nD) (t : Fin cfg1.N) (y : S5000x128.Idx) (k : S50000x128.Idx)
    (hk0 : (k 0).val = 5000 * t.val + (y 0).val) (hk1 : (k 1).val = (y 1).val) :
    (iblk1 V c 1 t : Vec Ideal S5000x128 .f32) y = (V c main_v42 : S50000x128.Idx → Elt Ideal .f32) k := by
  obtain ⟨-, -, h0, h1, -⟩ := idx_facts t
  unfold iblk1
  rw [View.read_apply]
  show V c main_v42 _ = V c main_v42 _
  refine congrArg (V c main_v42) (funext fun a => Fin.ext ?_)
  match a with
  | ⟨0, _⟩ => show win1_1.index t 0 * 5000 + 1 * (y 0).val = (k 0).val; rw [h0, hk0]; omega
  | ⟨1, _⟩ => show win1_1.index t 1 * 128 + 1 * (y 1).val = (k 1).val; rw [h1, hk1]; omega

/-- Window 2's block at point t is rows 5000 t … of the aggregated edge messages. -/
theorem blk2_apply (c : Dev nD) (t : Fin cfg1.N) (y : S5000x128.Idx) (k : S50000x128.Idx)
    (hk0 : (k 0).val = 5000 * t.val + (y 0).val) (hk1 : (k 1).val = (y 1).val) :
    (iblk1 V c 2 t : Vec Ideal S5000x128 .f32) y = (V c main_v48 : S50000x128.Idx → Elt Ideal .f32) k := by
  obtain ⟨-, -, -, -, h0, h1, -⟩ := idx_facts t
  unfold iblk1
  rw [View.read_apply]
  show V c main_v48 _ = V c main_v48 _
  refine congrArg (V c main_v48) (funext fun a => Fin.ext ?_)
  match a with
  | ⟨0, _⟩ => show win1_2.index t 0 * 5000 + 1 * (y 0).val = (k 0).val; rw [h0, hk0]; omega
  | ⟨1, _⟩ => show win1_2.index t 1 * 128 + 1 * (y 1).val = (k 1).val; rw [h1, hk1]; omega

/-- Window 3's block is the whole first weight matrix (transposed on the host), at every point. -/
theorem blk3_apply (c : Dev nD) (t : Fin cfg1.N) (y : S128x128.Idx) :
    (iblk1 V c 3 t : Vec Ideal S128x128 .f32) y = (V c main_v49 : S128x128.Idx → Elt Ideal .f32) y := by
  obtain ⟨-, -, -, -, -, -, h0, h1, -⟩ := idx_facts t
  unfold iblk1
  rw [View.read_apply]
  show V c main_v49 _ = V c main_v49 _
  refine congrArg (V c main_v49) (funext fun a => Fin.ext ?_)
  match a with
  | ⟨0, _⟩ => show win1_3.index t 0 * 128 + 1 * (y 0).val = (y 0).val; rw [h0]; omega
  | ⟨1, _⟩ => show win1_3.index t 1 * 128 + 1 * (y 1).val = (y 1).val; rw [h1]; omega

/-- Window 4's block is the whole first bias row, at every point. -/
theorem blk4_apply (c : Dev nD) (t : Fin cfg1.N) (y : S1x128.Idx) :
    (iblk1 V c 4 t : Vec Ideal S1x128 .f32) y = (V c main_v51 : S1x128.Idx → Elt Ideal .f32) y := by
  obtain ⟨-, -, -, -, -, -, -, -, h0, h1, -⟩ := idx_facts t
  unfold iblk1
  rw [View.read_apply]
  show V c main_v51 _ = V c main_v51 _
  refine congrArg (V c main_v51) (funext fun a => Fin.ext ?_)
  match a with
  | ⟨0, _⟩ => show win1_4.index t 0 * 1 + 1 * (y 0).val = (y 0).val; rw [h0]; omega
  | ⟨1, _⟩ => show win1_4.index t 1 * 128 + 1 * (y 1).val = (y 1).val; rw [h1]; omega

/-- Window 5's block is the whole second weight matrix (transposed on the host), at every point. -/
theorem blk5_apply (c : Dev nD) (t : Fin cfg1.N) (y : S128x128.Idx) :
    (iblk1 V c 5 t : Vec Ideal S128x128 .f32) y = (V c main_v50 : S128x128.Idx → Elt Ideal .f32) y := by
  obtain ⟨-, -, -, -, -, -, -, -, -, -, h0, h1, -⟩ := idx_facts t
  unfold iblk1
  rw [View.read_apply]
  show V c main_v50 _ = V c main_v50 _
  refine congrArg (V c main_v50) (funext fun a => Fin.ext ?_)
  match a with
  | ⟨0, _⟩ => show win1_5.index t 0 * 128 + 1 * (y 0).val = (y 0).val; rw [h0]; omega
  | ⟨1, _⟩ => show win1_5.index t 1 * 128 + 1 * (y 1).val = (y 1).val; rw [h1]; omega

/-- Window 6's block is the whole second bias row, at every point. -/
theorem blk6_apply (c : Dev nD) (t : Fin cfg1.N) (y : S1x128.Idx) :
    (iblk1 V c 6 t : Vec Ideal S1x128 .f32) y = (V c main_v52 : S1x128.Idx → Elt Ideal .f32) y := by
  obtain ⟨-, -, -, -, -, -, -, -, -, -, -, -, h0, h1, -⟩ := idx_facts t
  unfold iblk1
  rw [View.read_apply]
  show V c main_v52 _ = V c main_v52 _
  refine congrArg (V c main_v52) (funext fun a => Fin.ext ?_)
  match a with
  | ⟨0, _⟩ => show win1_6.index t 0 * 1 + 1 * (y 0).val = (y 0).val; rw [h0]; omega
  | ⟨1, _⟩ => show win1_6.index t 1 * 128 + 1 * (y 1).val = (y 1).val; rw [h1]; omega

/-! ## What a point writes back, and the cover -/

/-- WHAT POINT t WRITES BACK is block t of `GI` of the arrays as the call finds them. -/
theorem flushed_eq (c : Dev nD) (t : Fin cfg1.N) :
    (dat1 V c).flushed 7 t = ((cfg1.win 7).blk t).view.read (Elt Ideal)
      (GI (V c main_arg1) (V c main_v42) (V c main_v48) (V c main_v49) (V c main_v50) (V c main_v51) (V c main_v52)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [Body.pay1_eq]
  funext j
  obtain ⟨p, q, rfl⟩ : ∃ (p : Fin 5000) (q : Fin 128), j = ix2 p q := ⟨j 0, j 1, eq_ix2 j⟩
  have ht : t.val < 10 := lt_of_lt_of_eq t.isLt N_1
  obtain ⟨-, -, -, -, -, -, -, -, -, -, -, -, -, -, h70, h71⟩ := idx_facts t
  have hE0 : ((((cfg1.win 7).blk t).view.emb (ix2 p q)) 0).val = (⟨5000 * t.val + p.val, by omega⟩ : Fin 50000).val := by
    show win1_7.index t 0 * 5000 + 1 * p.val = 5000 * t.val + p.val; rw [h70]; omega
  have hE1 : ((((cfg1.win 7).blk t).view.emb (ix2 p q)) 1).val = q.val := by
    show win1_7.index t 1 * 128 + 1 * q.val = q.val; rw [h71]; omega
  show Body.nvec (Body.avec (Body.hvec _ _ _ _ _ _ _)) (ix2 p q) = GI _ _ _ _ _ _ _ (((cfg1.win 7).blk t).view.emb (ix2 p q))
  rw [Body.body_apply, GI_at _ _ _ _ _ _ _ _ ⟨5000 * t.val + p.val, by omega⟩ q hE0 hE1]
  have e0 : (fun k : Fin 128 => (iblk1 V c 0 t : Vec Ideal S5000x128 .f32) (ix2 p k)) = fun k => (V c main_arg1 : S50000x128.Idx → Elt Ideal .f32) (ix2 (⟨5000 * t.val + p.val, by omega⟩ : Fin 50000) k) :=
    funext fun k => blk0_apply V c t _ _ rfl rfl
  have e1 : (fun k : Fin 128 => (iblk1 V c 1 t : Vec Ideal S5000x128 .f32) (ix2 p k)) = fun k => (V c main_v42 : S50000x128.Idx → Elt Ideal .f32) (ix2 (⟨5000 * t.val + p.val, by omega⟩ : Fin 50000) k) :=
    funext fun k => blk1_apply V c t _ _ rfl rfl
  have e2 : (fun k : Fin 128 => (iblk1 V c 2 t : Vec Ideal S5000x128 .f32) (ix2 p k)) = fun k => (V c main_v48 : S50000x128.Idx → Elt Ideal .f32) (ix2 (⟨5000 * t.val + p.val, by omega⟩ : Fin 50000) k) :=
    funext fun k => blk2_apply V c t _ _ rfl rfl
  have e3 : (fun k j : Fin 128 => (iblk1 V c 3 t : Vec Ideal S128x128 .f32) (ix2 k j)) = fun k j => (V c main_v49 : S128x128.Idx → Elt Ideal .f32) (ix2 k j) :=
    funext fun k => funext fun j => blk3_apply V c t _
  have e5 : (fun k j : Fin 128 => (iblk1 V c 5 t : Vec Ideal S128x128 .f32) (ix2 k j)) = fun k j => (V c main_v50 : S128x128.Idx → Elt Ideal .f32) (ix2 k j) :=
    funext fun k => funext fun j => blk5_apply V c t _
  have e4 : (fun j : Fin 128 => (iblk1 V c 4 t : Vec Ideal S1x128 .f32) (ix2 (0 : Fin 1) j)) = fun j => (V c main_v51 : S1x128.Idx → Elt Ideal .f32) (ix2 (0 : Fin 1) j) :=
    funext fun j => blk4_apply V c t _
  have e6 : (fun j : Fin 128 => (iblk1 V c 6 t : Vec Ideal S1x128 .f32) (ix2 (0 : Fin 1) j)) = fun j => (V c main_v52 : S1x128.Idx → Elt Ideal .f32) (ix2 (0 : Fin 1) j) :=
    funext fun j => blk6_apply V c t _
  exact congrArg (fun f => Layer.out f q) (by rw [e0, e1, e2, e3, e5, e4, e6])

/-- An index of the result array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v54).slice (win1_7.rect t)).set ↔ _
  rw [View.set_slice_whole, Rect.mem_set_unit]
  exact Iff.rfl

/-- Every entry of the result array is in the block of the point its row falls in: point ⌊r / 5000⌋. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_7 _, ?_⟩
  rw [mem_blk]
  obtain ⟨-, -, -, -, -, -, -, -, -, -, -, -, -, -, h70, h71⟩ := idx_facts ⟨(i 0).val / 5000, by rw [hN]; omega⟩
  intro a
  match a with
  | ⟨0, _⟩ =>
    show win1_7.index _ 0 * 5000 ≤ (i 0).val ∧ (i 0).val < win1_7.index _ 0 * 5000 + 5000
    rw [h70]; show (i 0).val / 5000 * 5000 ≤ (i 0).val ∧ (i 0).val < (i 0).val / 5000 * 5000 + 5000; omega
  | ⟨1, _⟩ =>
    show win1_7.index _ 1 * 128 ≤ (i 1).val ∧ (i 1).val < win1_7.index _ 1 * 128 + 128
    rw [h71]; omega

/-- THE RESULT ARRAY after the call: `GI` of the arrays as the call finds them. -/
theorem final (c : Dev nD) :
    (dat1 V c).arrAt 7 cfg1.N = GI (V c main_arg1) (V c main_v42) (V c main_v48) (V c main_v49) (V c main_v50) (V c main_v51) (V c main_v52) :=
  (dat1 V c).arrAt_eq_of_cover 7 _ (fun t _ => flushed_eq V c t) cover

end Cert.KernelIdeal.BlocksI

end
-- ==== Proof.Entry.lean ====
/-
  What the two calls find in their input arrays, in terms of the launch memory.

  Before the first call the host computes the four aggregated arrays (gathers of the feature rows along the edge
  lists, per-edge scalings, scatter-adds into zero arrays), the two transposed weight matrices and the two bias rows
  as 1 × 128 arrays. These are, operation for operation, the stages the reference computes: the aggregated arrays are
  stated here AS the reference's own stages of the same arguments (never opened), the small ones as a transpose and a
  reshape. The first call writes only its own result array, so the second call finds the same contents.
-/
import proofs.«131043_j52561809769220_1_alg».proof.Proof.Gen.KernelIdeal.Frame
import proofs.«131043_j52561809769220_1_alg».proof.Proof.Gen.ReferenceIdeal.Read
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first call -/

theorem W1_arg0 (c : Dev nD) : W1 m ρ c (Proc.devRef .tc main_arg0)
    = (m ((c.tc : Thread nD τ).loc main_arg0)) := by
  show StableHlo.after hostOps0 (W0 m ρ c) (Proc.devRef .tc main_arg0) = _
  after_results_simp <;> rfl

theorem W1_arg1 (c : Dev nD) : W1 m ρ c (Proc.devRef .tc main_arg1)
    = (m ((c.tc : Thread nD τ).loc main_arg1)) := by
  show StableHlo.after hostOps0 (W0 m ρ c) (Proc.devRef .tc main_arg1) = _
  after_results_simp <;> rfl

/-- The item features aggregated into the users along the edges: the reference's stage of the same arguments. -/
theorem W1_v30 (c : Dev nD) : W1 m ρ c (Proc.devRef .tc main_v30)
    = Cert.ReferenceIdeal.Read.val_main_v30 (F := Ideal) (m ((c.tc : Thread nD τ).loc main_arg1)) (m ((c.tc : Thread nD τ).loc main_arg5)) (m ((c.tc : Thread nD τ).loc main_arg10)) (m ((c.tc : Thread nD τ).loc main_arg11)) := by
  show StableHlo.after hostOps0 (W0 m ρ c) (Proc.devRef .tc main_v30) = _
  after_results_simp <;> rfl

/-- The user features aggregated into the items along the edges: the reference's stage of the same arguments. -/
theorem W1_v42 (c : Dev nD) : W1 m ρ c (Proc.devRef .tc main_v42)
    = Cert.ReferenceIdeal.Read.val_main_v42 (F := Ideal) (m ((c.tc : Thread nD τ).loc main_arg0)) (m ((c.tc : Thread nD τ).loc main_arg4)) (m ((c.tc : Thread nD τ).loc main_arg10)) (m ((c.tc : Thread nD τ).loc main_arg11)) := by
  show StableHlo.after hostOps0 (W0 m ρ c) (Proc.devRef .tc main_v42) = _
  after_results_simp <;> rfl

/-- The edge messages summed into the users: the reference's stage of the same arguments. -/
theorem W1_v45 (c : Dev nD) : W1 m ρ c (Proc.devRef .tc main_v45)
    = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) := by
  show StableHlo.after hostOps0 (W0 m ρ c) (Proc.devRef .tc main_v45) = _
  after_results_simp <;> rfl

/-- The edge messages summed into the items: the reference's stage of the same arguments. -/
theorem W1_v48 (c : Dev nD) : W1 m ρ c (Proc.devRef .tc main_v48)
    = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) := by
  show StableHlo.after hostOps0 (W0 m ρ c) (Proc.devRef .tc main_v48) = _
  after_results_simp <;> rfl

/-- The first weight matrix, transposed. -/
theorem W1_v49 (c : Dev nD) : W1 m ρ c (Proc.devRef .tc main_v49)
    = transpose S128x128 [1, 0] (m ((c.tc : Thread nD τ).loc main_arg6)) transposes_S128x128_S128x128_1_0 := by
  show StableHlo.after hostOps0 (W0 m ρ c) (Proc.devRef .tc main_v49) = _
  after_results_simp <;> rfl

/-- The second weight matrix, transposed. -/
theorem W1_v50 (c : Dev nD) : W1 m ρ c (Proc.devRef .tc main_v50)
    = transpose S128x128 [1, 0] (m ((c.tc : Thread nD τ).loc main_arg8)) transposes_S128x128_S128x128_1_0 := by
  show StableHlo.after hostOps0 (W0 m ρ c) (Proc.devRef .tc main_v50) = _
  after_results_simp <;> rfl

/-- The first bias as a 1 × 128 array. -/
theorem W1_v51 (c : Dev nD) : W1 m ρ c (Proc.devRef .tc main_v51)
    = shapeCast S1x128 (m ((c.tc : Thread nD τ).loc main_arg7)) shapeCasts_S128_S1x128 := by
  show StableHlo.after hostOps0 (W0 m ρ c) (Proc.devRef .tc main_v51) = _
  after_results_simp <;> rfl

/-- The second bias as a 1 × 128 array. -/
theorem W1_v52 (c : Dev nD) : W1 m ρ c (Proc.devRef .tc main_v52)
    = shapeCast S1x128 (m ((c.tc : Thread nD τ).loc main_arg9)) shapeCasts_S128_S1x128 := by
  show StableHlo.after hostOps0 (W0 m ρ c) (Proc.devRef .tc main_v52) = _
  after_results_simp <;> rfl

/-! ## Before the second call: the first call wrote only its own result array -/

theorem W2_arg1 (c : Dev nD) : W2 m ρ c (Proc.devRef .tc main_arg1) = (m ((c.tc : Thread nD τ).loc main_arg1)) :=
  (W2_of_ne m ρ c main_arg1 (by decide)).trans (W1_arg1 m ρ c)

theorem W2_v42 (c : Dev nD) : W2 m ρ c (Proc.devRef .tc main_v42)
    = Cert.ReferenceIdeal.Read.val_main_v42 (F := Ideal) (m ((c.tc : Thread nD τ).loc main_arg0)) (m ((c.tc : Thread nD τ).loc main_arg4)) (m ((c.tc : Thread nD τ).loc main_arg10)) (m ((c.tc : Thread nD τ).loc main_arg11)) :=
  (W2_of_ne m ρ c main_v42 (by decide)).trans (W1_v42 m ρ c)

theorem W2_v48 (c : Dev nD) : W2 m ρ c (Proc.devRef .tc main_v48)
    = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) :=
  (W2_of_ne m ρ c main_v48 (by decide)).trans (W1_v48 m ρ c)

/-- An array the first call only reads (one of its input windows) is left as the call found it. -/
theorem W2_v49 (c : Dev nD) : W2 m ρ c (Proc.devRef .tc main_v49) = W1 m ρ c (Proc.devRef .tc main_v49) :=
  (W2_arr m ρ c 3).trans (((dat0 (V1 m ρ) c).arrAt_in 3 rfl _).trans (A_eq0 (V1 m ρ) c 3))
theorem W2_v51 (c : Dev nD) : W2 m ρ c (Proc.devRef .tc main_v51) = W1 m ρ c (Proc.devRef .tc main_v51) :=
  (W2_arr m ρ c 4).trans (((dat0 (V1 m ρ) c).arrAt_in 4 rfl _).trans (A_eq0 (V1 m ρ) c 4))
theorem W2_v50 (c : Dev nD) : W2 m ρ c (Proc.devRef .tc main_v50) = W1 m ρ c (Proc.devRef .tc main_v50) :=
  (W2_arr m ρ c 5).trans (((dat0 (V1 m ρ) c).arrAt_in 5 rfl _).trans (A_eq0 (V1 m ρ) c 5))
theorem W2_v52 (c : Dev nD) : W2 m ρ c (Proc.devRef .tc main_v52) = W1 m ρ c (Proc.devRef .tc main_v52) :=
  (W2_arr m ρ c 6).trans (((dat0 (V1 m ρ) c).arrAt_in 6 rfl _).trans (A_eq0 (V1 m ρ) c 6))

end Cert.KernelIdeal.Entry

end
-- ==== Proof.RefRowsUser.lean ====
/-
  The reference's user-table result, read at an entry.

  Result entry (r, j) is the fused layer's `out` of row r: of the table's own row, of row r of the two aggregated
  arrays (kept here as the reference's own stages, unopened), of the two weight matrices read transposed and of the two
  biases. Nothing beyond reading each stage at an index is used; the only arithmetic fact is 0 + s = s for the sum's
  initial value.
-/
import proofs.«131043_j52561809769220_1_alg».proof.Proof.Gen.ReferenceIdeal.Read
import proofs.«131043_j52561809769220_1_alg».proof.Proof.Layer

noncomputable section

namespace Cert.ReferenceIdeal.Rows

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S50000x128, .f32⟩ : BufTy).Contents (Elt Ideal)) (x2 : (⟨S100000x1, .f32⟩ : BufTy).Contents (Elt Ideal)) (x3 : (⟨S50000x1, .f32⟩ : BufTy).Contents (Elt Ideal))
  (x4 x5 : (⟨S600000x1, .f32⟩ : BufTy).Contents (Elt Ideal)) (x6 x8 : (⟨S128x128, .f32⟩ : BufTy).Contents (Elt Ideal)) (x7 x9 : (⟨S128, .f32⟩ : BufTy).Contents (Elt Ideal)) (x10 x11 : (⟨S600000, .i32⟩ : BufTy).Contents (Elt Ideal))

/-! ## The user table -/

/-- The row and the column of an entry of the user table. -/
abbrev rowU (i : S100000x128.Idx) : Fin 100000 := ⟨(i 0).val, (i 0).isLt⟩
abbrev colU (i : S100000x128.Idx) : Fin 128 := ⟨(i 1).val, (i 1).isLt⟩

/-- The reference's affine stage at an entry is the layer's `pre` of the entry's row: its two `dot_general`s are the
    sums over the shared coordinate, its transposes swap the weight's two coordinates, its biases are spread over the rows. -/
theorem preU_apply (q : S100000x128.Idx) :
    val_main_v60 (F := Ideal) x0 x1 x2 x3 x5 x6 x7 x8 x9 x10 x11 q
      = Layer.pre (fun k => x0 (ix2 (rowU q) k)) (fun k => val_main_v30 (F := Ideal) x1 x5 x10 x11 (ix2 (rowU q) k))
          (fun k => val_main_v45 (F := Ideal) x0 x1 x2 x3 x10 x11 (ix2 (rowU q) k))
          (fun k j => x6 (ix2 j k)) (fun k j => x8 (ix2 j k)) (fun j => x7 (ix1 j)) (fun j => x9 (ix1 j)) (colU q) := by
  rw [val_main_v60_apply, val_main_v57_apply, val_main_v54_apply, val_main_v51_apply, val_main_v53_apply, val_main_v52_apply,
    val_main_v56_apply, val_main_v59_apply, val_main_v58_apply]
  simp only [val_main_v49_apply, val_main_v50_apply, val_main_v55_apply]
  have e1 : ∀ k, lidx_main_v51 q k = ix2 (rowU q) k := fun k => funext fun a => by match a with | ⟨0, _⟩ => rfl | ⟨1, _⟩ => rfl
  have e2 : ∀ k, idx_main_v50 (ridx_main_v51 q k) = ix2 (colU q) k := fun k => funext fun a => by match a with | ⟨0, _⟩ => rfl | ⟨1, _⟩ => rfl
  have e3 : ∀ k, lidx_main_v56 q k = ix2 (rowU q) k := fun k => funext fun a => by match a with | ⟨0, _⟩ => rfl | ⟨1, _⟩ => rfl
  have e4 : ∀ k, idx_main_v55 (ridx_main_v56 q k) = ix2 (colU q) k := fun k => funext fun a => by match a with | ⟨0, _⟩ => rfl | ⟨1, _⟩ => rfl
  have e5 : idx_main_v52 (idx_main_v53 q) = ix1 (colU q) := funext fun a => by match a with | ⟨0, _⟩ => rfl
  have e6 : idx_main_v58 (idx_main_v59 q) = ix1 (colU q) := funext fun a => by match a with | ⟨0, _⟩ => rfl
  simp only [e1, e2, e3, e4, e5, e6]
  rfl

/-- The reference's result at an entry is the layer's `out` of the entry's row. -/
theorem outU_apply (i : S100000x128.Idx) :
    val_main_v85 (F := Ideal) x0 x1 x2 x3 x5 x6 x7 x8 x9 x10 x11 i
      = Layer.out (Layer.pre (fun k => x0 (ix2 (rowU i) k)) (fun k => val_main_v30 (F := Ideal) x1 x5 x10 x11 (ix2 (rowU i) k))
          (fun k => val_main_v45 (F := Ideal) x0 x1 x2 x3 x10 x11 (ix2 (rowU i) k))
          (fun k j => x6 (ix2 j k)) (fun k j => x8 (ix2 j k)) (fun j => x7 (ix1 j)) (fun j => x9 (ix1 j))) (colU i) := by
  have hact : ∀ q, val_main_v77 (F := Ideal) x0 x1 x2 x3 x5 x6 x7 x8 x9 x10 x11 q = Layer.act (val_main_v60 (F := Ideal) x0 x1 x2 x3 x5 x6 x7 x8 x9 x10 x11 q) := fun q => by
    rw [val_main_v77_apply, val_main_v74_apply, val_main_v76_apply, val_main_v73_apply, val_main_cst_10_apply, val_main_v75_apply, val_main_cst_11_apply]
    rfl
  rw [val_main_v85_apply, val_main_v84_apply, val_main_v83_apply, val_main_v81_apply, val_main_v80_apply, val_main_v79_apply,
    val_main_v82_apply, val_main_cst_13_apply, val_main_cst_12_apply]
  simp only [val_main_v78_apply, hact, preU_apply]
  have er : ∀ k, rowU (idx_main_v79 (idx_main_v80 (idx_main_v84 i)) k) = rowU i := fun k => rfl
  have ec : ∀ k, colU (idx_main_v79 (idx_main_v80 (idx_main_v84 i)) k) = k := fun k => rfl
  simp only [er, ec]
  unfold Layer.out
  show Ideal.div _ (max (Ideal.sqrt (Ideal.ofBits .f32 0x00000000#32 + _)) _) = _
  rw [Ideal.ofBits_zero_f32, zero_add]
  rfl

end Cert.ReferenceIdeal.Rows

end
-- ==== Proof.RefRowsItem.lean ====
/-
  The reference's item-table result, read at an entry.

  Result entry (r, j) is the fused layer's `out` of row r: of the table's own row, of row r of the two aggregated
  arrays (kept here as the reference's own stages, unopened), of the two weight matrices read transposed and of the two
  biases. Nothing beyond reading each stage at an index is used; the only arithmetic fact is 0 + s = s for the sum's
  initial value.
-/
import proofs.«131043_j52561809769220_1_alg».proof.Proof.Gen.ReferenceIdeal.Read
import proofs.«131043_j52561809769220_1_alg».proof.Proof.Layer

noncomputable section

namespace Cert.ReferenceIdeal.Rows

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S50000x128, .f32⟩ : BufTy).Contents (Elt Ideal)) (x2 : (⟨S100000x1, .f32⟩ : BufTy).Contents (Elt Ideal)) (x3 : (⟨S50000x1, .f32⟩ : BufTy).Contents (Elt Ideal))
  (x4 x5 : (⟨S600000x1, .f32⟩ : BufTy).Contents (Elt Ideal)) (x6 x8 : (⟨S128x128, .f32⟩ : BufTy).Contents (Elt Ideal)) (x7 x9 : (⟨S128, .f32⟩ : BufTy).Contents (Elt Ideal)) (x10 x11 : (⟨S600000, .i32⟩ : BufTy).Contents (Elt Ideal))

/-! ## The item table -/

/-- The row and the column of an entry of the item table. -/
abbrev rowI (i : S50000x128.Idx) : Fin 50000 := ⟨(i 0).val, (i 0).isLt⟩
abbrev colI (i : S50000x128.Idx) : Fin 128 := ⟨(i 1).val, (i 1).isLt⟩

/-- The reference's affine stage at an entry is the layer's `pre` of the entry's row: its two `dot_general`s are the
    sums over the shared coordinate, its transposes swap the weight's two coordinates, its biases are spread over the rows. -/
theorem preI_apply (q : S50000x128.Idx) :
    val_main_v72 (F := Ideal) x0 x1 x2 x3 x4 x6 x7 x8 x9 x10 x11 q
      = Layer.pre (fun k => x1 (ix2 (rowI q) k)) (fun k => val_main_v42 (F := Ideal) x0 x4 x10 x11 (ix2 (rowI q) k))
          (fun k => val_main_v48 (F := Ideal) x0 x1 x2 x3 x10 x11 (ix2 (rowI q) k))
          (fun k j => x6 (ix2 j k)) (fun k j => x8 (ix2 j k)) (fun j => x7 (ix1 j)) (fun j => x9 (ix1 j)) (colI q) := by
  rw [val_main_v72_apply, val_main_v69_apply, val_main_v66_apply, val_main_v63_apply, val_main_v65_apply, val_main_v64_apply,
    val_main_v68_apply, val_main_v71_apply, val_main_v70_apply]
  simp only [val_main_v61_apply, val_main_v62_apply, val_main_v67_apply]
  have e1 : ∀ k, lidx_main_v63 q k = ix2 (rowI q) k := fun k => funext fun a => by match a with | ⟨0, _⟩ => rfl | ⟨1, _⟩ => rfl
  have e2 : ∀ k, idx_main_v62 (ridx_main_v63 q k) = ix2 (colI q) k := fun k => funext fun a => by match a with | ⟨0, _⟩ => rfl | ⟨1, _⟩ => rfl
  have e3 : ∀ k, lidx_main_v68 q k = ix2 (rowI q) k := fun k => funext fun a => by match a with | ⟨0, _⟩ => rfl | ⟨1, _⟩ => rfl
  have e4 : ∀ k, idx_main_v67 (ridx_main_v68 q k) = ix2 (colI q) k := fun k => funext fun a => by match a with | ⟨0, _⟩ => rfl | ⟨1, _⟩ => rfl
  have e5 : idx_main_v64 (idx_main_v65 q) = ix1 (colI q) := funext fun a => by match a with | ⟨0, _⟩ => rfl
  have e6 : idx_main_v70 (idx_main_v71 q) = ix1 (colI q) := funext fun a => by match a with | ⟨0, _⟩ => rfl
  simp only [e1, e2, e3, e4, e5, e6]
  rfl

/-- The reference's result at an entry is the layer's `out` of the entry's row. -/
theorem outI_apply (i : S50000x128.Idx) :
    val_main_v98 (F := Ideal) x0 x1 x2 x3 x4 x6 x7 x8 x9 x10 x11 i
      = Layer.out (Layer.pre (fun k => x1 (ix2 (rowI i) k)) (fun k => val_main_v42 (F := Ideal) x0 x4 x10 x11 (ix2 (rowI i) k))
          (fun k => val_main_v48 (F := Ideal) x0 x1 x2 x3 x10 x11 (ix2 (rowI i) k))
          (fun k j => x6 (ix2 j k)) (fun k j => x8 (ix2 j k)) (fun j => x7 (ix1 j)) (fun j => x9 (ix1 j))) (colI i) := by
  have hact : ∀ q, val_main_v90 (F := Ideal) x0 x1 x2 x3 x4 x6 x7 x8 x9 x10 x11 q = Layer.act (val_main_v72 (F := Ideal) x0 x1 x2 x3 x4 x6 x7 x8 x9 x10 x11 q) := fun q => by
    rw [val_main_v90_apply, val_main_v87_apply, val_main_v89_apply, val_main_v86_apply, val_main_cst_14_apply, val_main_v88_apply, val_main_cst_15_apply]
    rfl
  rw [val_main_v98_apply, val_main_v97_apply, val_main_v96_apply, val_main_v94_apply, val_main_v93_apply, val_main_v92_apply,
    val_main_v95_apply, val_main_cst_17_apply, val_main_cst_16_apply]
  simp only [val_main_v91_apply, hact, preI_apply]
  have er : ∀ k, rowI (idx_main_v92 (idx_main_v93 (idx_main_v97 i)) k) = rowI i := fun k => rfl
  have ec : ∀ k, colI (idx_main_v92 (idx_main_v93 (idx_main_v97 i)) k) = k := fun k => rfl
  simp only [er, ec]
  unfold Layer.out
  show Ideal.div _ (max (Ideal.sqrt (Ideal.ofBits .f32 0x00000000#32 + _)) _) = _
  rw [Ideal.ofBits_zero_f32, zero_add]
  rfl

end Cert.ReferenceIdeal.Rows

end
-- ==== Proof.Result.lean ====
/-
  The two result arrays after the run, as the reference's result stages of the launch arguments.

  The user result array is written by the first call only, the item result array by the second; each ends holding the
  fused layer of the arrays its call found (the blocks-to-array step), those arrays are the reference's own stages of the
  launch arguments (the entry step), and the reference's result stage read at an entry is the same layer of the same
  rows (the reference step). The weights meet through the transpose read at an index, the biases through the reshape.
-/
import proofs.«131043_j52561809769220_1_alg».proof.Proof.RunNamed
import proofs.«131043_j52561809769220_1_alg».proof.Proof.BlocksUser
import proofs.«131043_j52561809769220_1_alg».proof.Proof.BlocksItem
import proofs.«131043_j52561809769220_1_alg».proof.Proof.Entry
import proofs.«131043_j52561809769220_1_alg».proof.Proof.RefRowsUser
import proofs.«131043_j52561809769220_1_alg».proof.Proof.RefRowsItem
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The transposed weights at (k, j) are the weights at (j, k); the reshaped bias at (0, j) is the bias at j. -/
theorem wt_apply (w : FVec Ideal S128x128 .f32) (k j : Fin 128) :
    transpose S128x128 [1, 0] w transposes_S128x128_S128x128_1_0 (ix2 k j) = w (ix2 j k) :=
  transpose_ix2_apply w transposes_S128x128_S128x128_1_0 k j
theorem br_apply (b : FVec Ideal S128 .f32) (j : Fin 128) :
    shapeCast S1x128 b shapeCasts_S128_S1x128 (ix2 (0 : Fin 1) j) = b (ix1 j) :=
  shapeCast_a_1a_apply b shapeCasts_S128_S1x128 0 j

/-- The layer over transposed weights and reshaped biases is the layer over the weights read transposed and the biases
    read as vectors: the user table. -/
theorem GU_weights (feat agg msg : FVec Ideal S100000x128 .f32) (w1 w2 : FVec Ideal S128x128 .f32) (bb1 bb2 : FVec Ideal S128 .f32) (i : S100000x128.Idx) :
    BlocksU.GU feat agg msg (transpose S128x128 [1, 0] w1 transposes_S128x128_S128x128_1_0) (transpose S128x128 [1, 0] w2 transposes_S128x128_S128x128_1_0)
        (shapeCast S1x128 bb1 shapeCasts_S128_S1x128) (shapeCast S1x128 bb2 shapeCasts_S128_S1x128) i
      = Layer.out (Layer.pre (fun k => feat (ix2 (BlocksU.rowU i) k)) (fun k => agg (ix2 (BlocksU.rowU i) k)) (fun k => msg (ix2 (BlocksU.rowU i) k))
          (fun k j => w1 (ix2 j k)) (fun k j => w2 (ix2 j k)) (fun j => bb1 (ix1 j)) (fun j => bb2 (ix1 j))) (BlocksU.colU i) := by
  unfold BlocksU.GU
  simp only [br_apply]
  exact congrArg₂ (fun a b => Layer.out (Layer.pre (fun k => feat (ix2 (BlocksU.rowU i) k)) (fun k => agg (ix2 (BlocksU.rowU i) k)) (fun k => msg (ix2 (BlocksU.rowU i) k))
      a b (fun j => bb1 (ix1 j)) (fun j => bb2 (ix1 j))) (BlocksU.colU i))
    (funext fun k => funext fun j => wt_apply w1 k j) (funext fun k => funext fun j => wt_apply w2 k j)

/-- The same for the item table. -/
theorem GI_weights (feat agg msg : FVec Ideal S50000x128 .f32) (w1 w2 : FVec Ideal S128x128 .f32) (bb1 bb2 : FVec Ideal S128 .f32) (i : S50000x128.Idx) :
    BlocksI.GI feat agg msg (transpose S128x128 [1, 0] w1 transposes_S128x128_S128x128_1_0) (transpose S128x128 [1, 0] w2 transposes_S128x128_S128x128_1_0)
        (shapeCast S1x128 bb1 shapeCasts_S128_S1x128) (shapeCast S1x128 bb2 shapeCasts_S128_S1x128) i
      = Layer.out (Layer.pre (fun k => feat (ix2 (BlocksI.rowI i) k)) (fun k => agg (ix2 (BlocksI.rowI i) k)) (fun k => msg (ix2 (BlocksI.rowI i) k))
          (fun k j => w1 (ix2 j k)) (fun k j => w2 (ix2 j k)) (fun j => bb1 (ix1 j)) (fun j => bb2 (ix1 j))) (BlocksI.colI i) := by
  unfold BlocksI.GI
  simp only [br_apply]
  exact congrArg₂ (fun a b => Layer.out (Layer.pre (fun k => feat (ix2 (BlocksI.rowI i) k)) (fun k => agg (ix2 (BlocksI.rowI i) k)) (fun k => msg (ix2 (BlocksI.rowI i) k))
      a b (fun j => bb1 (ix1 j)) (fun j => bb2 (ix1 j))) (BlocksI.colI i))
    (funext fun k => funext fun j => wt_apply w1 k j) (funext fun k => funext fun j => wt_apply w2 k j)

/-- THE USER RESULT after the run is the reference's user result stage of the launch arguments. -/
theorem user (c : Dev nD) : W3 m ρ c (Proc.devRef .tc main_v53)
    = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ((W3_of_ne m ρ c main_v53 (by decide)).trans ((W2_arr m ρ c 7).trans (BlocksU.final (V1 m ρ) c))).trans ?_
  have h0 : V1 m ρ c main_arg0 = (m ((c.tc : Thread nD τ).loc main_arg0)) := Entry.W1_arg0 m ρ c
  have h30 : V1 m ρ c main_v30 = _ := Entry.W1_v30 m ρ c
  have h45 : V1 m ρ c main_v45 = _ := Entry.W1_v45 m ρ c
  have h49 : V1 m ρ c main_v49 = _ := Entry.W1_v49 m ρ c
  have h50 : V1 m ρ c main_v50 = _ := Entry.W1_v50 m ρ c
  have h51 : V1 m ρ c main_v51 = _ := Entry.W1_v51 m ρ c
  have h52 : V1 m ρ c main_v52 = _ := Entry.W1_v52 m ρ c
  rw [h0, h30, h45, h49, h50, h51, h52]
  funext i
  refine (GU_weights _ _ _ _ _ _ _ i).trans ?_
  rw [Cert.ReferenceIdeal.Rows.outU_apply]

/-- THE ITEM RESULT after the run is the reference's item result stage of the launch arguments. -/
theorem item (c : Dev nD) : W3 m ρ c (Proc.devRef .tc main_v54)
    = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ((W3_arr m ρ c 7).trans (BlocksI.final (V2 m ρ) c)).trans ?_
  have h1 : V2 m ρ c main_arg1 = (m ((c.tc : Thread nD τ).loc main_arg1)) := Entry.W2_arg1 m ρ c
  have h42 : V2 m ρ c main_v42 = _ := Entry.W2_v42 m ρ c
  have h48 : V2 m ρ c main_v48 = _ := Entry.W2_v48 m ρ c
  have h49 : V2 m ρ c main_v49 = _ := (Entry.W2_v49 m ρ c).trans (Entry.W1_v49 m ρ c)
  have h50 : V2 m ρ c main_v50 = _ := (Entry.W2_v50 m ρ c).trans (Entry.W1_v50 m ρ c)
  have h51 : V2 m ρ c main_v51 = _ := (Entry.W2_v51 m ρ c).trans (Entry.W1_v51 m ρ c)
  have h52 : V2 m ρ c main_v52 = _ := (Entry.W2_v52 m ρ c).trans (Entry.W1_v52 m ρ c)
  rw [h1, h42, h48, h49, h50, h51, h52]
  funext i
  refine (GI_weights _ _ _ _ _ _ _ i).trans ?_
  rw [Cert.ReferenceIdeal.Rows.outI_apply]

end Cert.KernelIdeal.Result

end
-- ==== Proof.lean ====
/-
  The claim: a two-table message-passing layer, computed by two blocked calls of one fused kernel, agrees with its
  plain reference over the extended reals.

  Both programs aggregate along the same edge lists on the host (gathers of feature rows, per-edge scalings, scatter-adds
  into zero arrays); the kernel program then runs, once per table, a kernel that walks the table in blocks of 5000 rows
  and computes for every row r

      h = (x_r + a_r) W₁ᵀ + b₁ + g_r W₂ᵀ + b₂ ,   a = h where h > 0 and 0.2 h elsewhere ,   out = a / max(‖a‖₂, ε)

  while the reference computes the same expression on the whole tables. Over the extended reals a block of a matrix
  product is the product of the block, a lane sum from the neutral accumulator is the plain sum, and the operations are
  applied in the same order on both sides, so no algebraic law beyond 0 + s = s is needed and the finiteness of the
  inputs is never used.

  The three frames: the two kernel programs' are the generated frame certificates; the reference has no kernel and its
  frame is its run with the results dropped. The idealization rewrote nothing, so `preserves` is trivial. The value
  claim: the kernel program's run with its two result arrays named (RunNamed), each array as the fused layer of what
  its call found (BlocksUser, BlocksItem over Body and Layer), what the calls found as the reference's own stages
  (Entry), the reference's results read at an entry (RefRowsUser, RefRowsItem), joined in Result.
-/
import proofs.«131043_j52561809769220_1_alg».proof.Defs
import proofs.«131043_j52561809769220_1_alg».proof.Proof.Gen.Kernel
import proofs.«131043_j52561809769220_1_alg».proof.Proof.Gen.Kernel.Frame
import proofs.«131043_j52561809769220_1_alg».proof.Proof.Gen.KernelIdeal
import proofs.«131043_j52561809769220_1_alg».proof.Proof.Gen.KernelIdeal.Frame
import proofs.«131043_j52561809769220_1_alg».proof.Proof.Gen.ReferenceIdeal
import proofs.«131043_j52561809769220_1_alg».proof.Proof.Gen.Pre_finite_inputs
import proofs.«131043_j52561809769220_1_alg».proof.Proof.Gen.ReferenceIdeal.Run
import proofs.«131043_j52561809769220_1_alg».proof.Proof.Gen.ReferenceIdeal.Read
import proofs.«131043_j52561809769220_1_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs on the host only: its frame is its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the twelve arguments both programs end with the same two tables: the kernel program's
    result arrays hold the reference's result stages of its own arguments, which are the reference's arguments. -/
theorem algebraic : Cert.algebraic_KernelIdeal_ReferenceIdeal := by
  intro m ρ m' ρ' _ hagree
  refine ⟨fun c => Cert.KernelIdeal.Gen.W3 m ρ c (Proc.devRef .tc Cert.KernelIdeal.main_v53),
    fun c => Cert.KernelIdeal.Gen.W3 m ρ c (Proc.devRef .tc Cert.KernelIdeal.main_v54),
    Cert.KernelIdeal.RunNamed.run_named m ρ, ?_⟩
  refine (θ_run Cert.ReferenceIdeal.defs _ _).mono (fun _ h c => ?_) (Cert.ReferenceIdeal.Value.run (F := Ideal) m' ρ')
  obtain ⟨h85, h98, hargs⟩ := h c
  obtain ⟨e0, e1, e2, e3, e4, e5, e6, e7, e8, e9, e10, e11⟩ := hagree c
  refine ⟨h85.trans ?_, h98.trans ?_, hargs⟩
  · rw [Cert.ReferenceIdeal.Read.val_main_v85_eq, e0, e1, e2, e3, e5, e6, e7, e8, e9, e10, e11]
    exact (Cert.KernelIdeal.Result.user m ρ c).symm
  · rw [Cert.ReferenceIdeal.Read.val_main_v98_eq, e0, e1, e2, e3, e4, e6, e7, e8, e9, e10, e11]
    exact (Cert.KernelIdeal.Result.item m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
